-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x6144 : Shape := ⟨2, ![2048, 6144]⟩
abbrev S6144 : Shape := ⟨1, ![6144]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_

variable [Facts]

def fn {F : FTy → Type} [FloatOps F] (main_arg0 : FVec F S4x4096x2048 .f32) (main_arg1 : FVec F S2048x6144 .f32) (main_arg2 : FVec F S6144 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  main_v13
-- ==== Kernel.lean ====
abbrev S4x4096x2048 : Shape := ⟨3, ![4, 4096, 2048]⟩
abbrev S2048x6144 : Shape := ⟨2, ![2048, 6144]⟩
abbrev S6144 : Shape := ⟨1, ![6144]⟩
abbrev S16384x2048 : Shape := ⟨2, ![16384, 2048]⟩
abbrev S1x6144 : Shape := ⟨2, ![1, 6144]⟩
abbrev S16384x6144 : Shape := ⟨2, ![16384, 6144]⟩
abbrev S512x2048 : Shape := ⟨2, ![512, 2048]⟩
abbrev S2048x768 : Shape := ⟨2, ![2048, 768]⟩
abbrev S1x768 : Shape := ⟨2, ![1, 768]⟩
abbrev S512x768 : Shape := ⟨2, ![512, 768]⟩
abbrev S4x4096x6144 : Shape := ⟨3, ![4, 4096, 6144]⟩
abbrev S4x4096x16x128 : Shape := ⟨4, ![4, 4096, 16, 128]⟩
abbrev S4x16x4096x128 : Shape := ⟨4, ![4, 16, 4096, 128]⟩

abbrev nBuf : Space → Nat
  | .hbm => 16
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S6144, .f32⟩
  | .hbm, ⟨3, _⟩ => ⟨S16384x2048, .f32⟩
  | .hbm, ⟨4, _⟩ => ⟨S1x6144, .f32⟩
  | .hbm, ⟨5, _⟩ => ⟨S16384x6144, .f32⟩
  | .hbm, ⟨6, _⟩ => ⟨S4x4096x6144, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x16x128, .f32⟩
  | .hbm, ⟨11, _⟩ => ⟨S4x16x4096x128, .f32⟩
  | .hbm, ⟨12, _⟩ => ⟨S4x4096x16x128, .f32⟩
  | .hbm, ⟨13, _⟩ => ⟨S4x16x4096x128, .f32⟩
  | .hbm, ⟨14, _⟩ => ⟨S4x4096x16x128, .f32⟩
  | .hbm, ⟨15, _⟩ => ⟨S4x16x4096x128, .f32⟩
  | .local _ .vmem, ⟨0, _⟩ => ⟨S512x2048, .f32⟩
  | .local _ .vmem, ⟨1, _⟩ => ⟨S512x2048, .f32⟩
  | .local _ .vmem, ⟨2, _⟩ => ⟨S2048x768, .f32⟩
  | .local _ .vmem, ⟨3, _⟩ => ⟨S2048x768, .f32⟩
  | .local _ .vmem, ⟨4, _⟩ => ⟨S1x768, .f32⟩
  | .local _ .vmem, ⟨5, _⟩ => ⟨S1x768, .f32⟩
  | .local _ .vmem, ⟨6, _⟩ => ⟨S512x768, .f32⟩
  | .local _ .vmem, ⟨7, _⟩ => ⟨S512x768, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x4096x2048_S16384x2048 : S4x4096x2048.ShapeCasts S16384x2048
  shapeCasts_S6144_S1x6144 : S6144.ShapeCasts S1x6144
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S16384x6144_S4x4096x6144 : S16384x6144.ShapeCasts S4x4096x6144
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  shapeCasts_S4x4096x2048_S4x4096x16x128 : S4x4096x2048.ShapeCasts S4x4096x16x128
  transposes_S4x4096x16x128_S4x16x4096x128_0_2_1_3 : S4x4096x16x128.Transposes [0, 2, 1, 3] S4x16x4096x128
  dot_S512x2048_S2048x768_S512x768_1_0_0_1_n_n_wf : DotDims.WF S512x2048 S2048x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x6144.size a
  hwx0_1 : ∀ i : grid0.Coords, EltTy.bits .f32 = 32 ∨ (Rect.block (s := S2048x6144) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x6144.size a
  hwx0_2 : ∀ i : grid0.Coords, EltTy.bits .f32 = 32 ∨ (Rect.block (s := S1x6144) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S16384x6144.size a
  hwx0_3 : ∀ i : grid0.Coords, EltTy.bits .f32 = 32 ∨ (Rect.block (s := S16384x6144) S512x768.size (cc0_transform_3 i) (hinb0_3 i)).WholeWords (EltTy.packing .f32)

variable [Facts₀]

def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x6144 : Shape := ⟨2, ![2048, 6144]⟩
abbrev S6144 : Shape := ⟨1, ![6144]⟩
abbrev S4x4096x6144 : Shape := ⟨3, ![4, 4096, 6144]⟩
abbrev S1x1x6144 : Shape := ⟨3, ![1, 1, 6144]⟩
abbrev S4x4096x16x128 : Shape := ⟨4, ![4, 4096, 16, 128]⟩
abbrev S4x16x4096x128 : Shape := ⟨4, ![4, 16, 4096, 128]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6144, .f32⟩
  | .hbm, ⟨2, _⟩ => ⟨S6144, .f32⟩
  | .hbm, ⟨3, _⟩ => ⟨S4x4096x6144, .f32⟩
  | .hbm, ⟨4, _⟩ => ⟨S1x1x6144, .f32⟩
  | .hbm, ⟨5, _⟩ => ⟨S4x4096x6144, .f32⟩
  | .hbm, ⟨6, _⟩ => ⟨S4x4096x6144, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x16x128, .f32⟩
  | .hbm, ⟨11, _⟩ => ⟨S4x16x4096x128, .f32⟩
  | .hbm, ⟨12, _⟩ => ⟨S4x4096x16x128, .f32⟩
  | .hbm, ⟨13, _⟩ => ⟨S4x16x4096x128, .f32⟩
  | .hbm, ⟨14, _⟩ => ⟨S4x4096x16x128, .f32⟩
  | .hbm, ⟨15, _⟩ => ⟨S4x16x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  bcast_S6144_S1x1x6144_2 : S6144.BroadcastsInDim S1x1x6144 (![2] : Fin 1 → Fin S1x1x6144.rank)
  bcast_S1x1x6144_S4x4096x6144_0_1_2 : S1x1x6144.BroadcastsInDim S4x4096x6144 (![0, 1, 2] : Fin 3 → Fin S4x4096x6144.rank)
  slices_S4x4096x6144_S4x4096x2048_0_0_0 : S4x4096x6144.Slices ![0, 0, 0] S4x4096x2048
  slices_S4x4096x6144_S4x4096x2048_0_0_2048 : S4x4096x6144.Slices ![0, 0, 2048] S4x4096x2048
  slices_S4x4096x6144_S4x4096x2048_0_0_4096 : S4x4096x6144.Slices ![0, 0, 4096] S4x4096x2048
  shapeCasts_S4x4096x2048_S4x4096x16x128 : S4x4096x2048.ShapeCasts S4x4096x16x128
  transposes_S4x4096x16x128_S4x16x4096x128_0_2_1_3 : S4x4096x16x128.Transposes [0, 2, 1, 3] S4x16x4096x128
  dot_S4x4096x2048_S2048x6144_S4x4096x6144_2_0_01_1_n_n_wf : DotDims.WF S4x4096x2048 S2048x6144 S4x4096x6144 [2] [0] [0, 1] [1] [] []

variable [Facts₀]

def dot_S4x4096x2048_S2048x6144_S4x4096x6144_2_0_01_1_n_n : DotDims S4x4096x2048 S2048x6144 S4x4096x6144 where
  lhsContracting := [2]
  rhsContracting := [0]
  lhsNonContracting := [0, 1]
  rhsNonContracting := [1]
  lhsBatch := []
  rhsBatch := []
  wf := dot_S4x4096x2048_S2048x6144_S4x4096x6144_2_0_01_1_n_n_wf

class Facts : Prop extends Facts₀ where

variable [Facts]
-- ==== Proof.Spec.lean ====
/-
  The fused QKV projection as ONE function of the three argument arrays, and the change of layout that joins
  the kernel's flat [16384, 6144] result to it.

  For hidden states x : [4, 4096, 2048], a weight w : [2048, 6144] and a bias b : [6144] the projection is
      qkv[n, t, d] = (∑ h, x[n, t, h] · w[h, d]) + b[d]        over the extended reals.
  The kernel computes the same sums on the rows of the flattened x2 : [16384, 2048] (row n·4096 + t is x[n, t, ·])
  against the bias as a [1, 6144] row, and the flat result is read back as [4, 4096, 6144]: the row-major
  positions agree, (n·4096 + t)·6144 + d on both sides, so the two arrays are equal index by index. No law of
  arithmetic is needed beyond reading both sums over the same index set.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Qkv

open Idealize.ShloMosaic Idealize.ShloMosaic.ValueIdx

/-- hidden states [4, 4096, 2048] -/
abbrev Hid : Shape := ⟨3, ![4, 4096, 2048]⟩
/-- weight [2048, 6144] -/
abbrev Wgt : Shape := ⟨2, ![2048, 6144]⟩
/-- bias [6144] -/
abbrev Bias : Shape := ⟨1, ![6144]⟩
/-- hidden states with batch and time flattened [16384, 2048] -/
abbrev Rows : Shape := ⟨2, ![16384, 2048]⟩
/-- the bias as one row [1, 6144] -/
abbrev BiasRow : Shape := ⟨2, ![1, 6144]⟩
/-- the flat projection [16384, 6144] -/
abbrev Flat : Shape := ⟨2, ![16384, 6144]⟩
/-- the projection [4, 4096, 6144] -/
abbrev Out : Shape := ⟨3, ![4, 4096, 6144]⟩

/-- a third of the projection's columns, split into 16 heads of 128: [4, 4096, 16, 128] -/
abbrev Split : Shape := ⟨4, ![4, 4096, 16, 128]⟩
/-- the same with the heads ahead of time: [4, 16, 4096, 128] -/
abbrev Heads : Shape := ⟨4, ![4, 16, 4096, 128]⟩

/-- Columns off … off + 2047 of a [4, 4096, 6144] array, split into 16 heads of 128 columns, the head axis moved
    ahead of the time axis: entry [n, g, t, e] is y[n, t, off + g·128 + e]. Both programs end with these three
    layout steps, at off = 0, 2048 and 4096 (query, key, value). -/
abbrev heads (off : Nat) (y : Out.Idx → EReal) (hs : Out.Slices ![0, 0, off] Hid) (hc : Hid.ShapeCasts Split)
    (ht : Split.Transposes [0, 2, 1, 3] Heads) : Heads.Idx → EReal :=
  transpose Heads [0, 2, 1, 3] (shapeCast Split (extractStridedSlice Hid ![0, 0, off] y hs) hc) ht

/-- The projection: qkv[n, t, d] = (∑ h, x[n, t, h] · w[h, d]) + b[d]. -/
def qkv (x : Hid.Idx → EReal) (w : Wgt.Idx → EReal) (b : Bias.Idx → EReal) : Out.Idx → EReal :=
  fun i => (∑ h : Fin 2048, x (ix3 (i 0) (i 1) h) * w (ix2 h (i 2))) + b (ix1 (i 2))

/-- The same on flattened rows: p[r, d] = (∑ h, x2[r, h] · w[h, d]) + b2[0, d]. -/
def proj (x2 : Rows.Idx → EReal) (w : Wgt.Idx → EReal) (b2 : BiasRow.Idx → EReal) : Flat.Idx → EReal :=
  fun i => (∑ h : Fin 2048, x2 (ix2 (i 0) h) * w (ix2 h (i 1))) + b2 (ix2 (0 : Fin 1) (i 1))

/-- Row n·4096 + t of the flattened hidden states is x[n, t, ·]. -/
theorem rows_apply (x : Hid.Idx → EReal) (hx : Hid.ShapeCasts Rows) (n : Fin 4) (t : Fin 4096) (h : Fin 2048)
    (r : Fin 16384) (hr : r.val = n.val * 4096 + t.val) :
    shapeCast Rows x hx (ix2 r h) = x (ix3 n t h) := by
  refine shapeCast_apply x hx (ix2 r h) (ix3 n t h) ?_
  rw [Shape.rowMajor_val_three, Shape.rowMajor_val_two]
  show (n.val * 4096 + t.val) * 2048 + h.val = r.val * 2048 + h.val
  rw [hr]

/-- Entry [0, d] of the bias row is b[d]. -/
theorem biasRow_apply (b : Bias.Idx → EReal) (hb : Bias.ShapeCasts BiasRow) (d : Fin 6144) :
    shapeCast BiasRow b hb (ix2 (0 : Fin 1) d) = b (ix1 d) := by
  refine shapeCast_apply b hb (ix2 (0 : Fin 1) d) (ix1 d) ?_
  rw [Shape.rowMajor_val_one, Shape.rowMajor_val_two]
  show d.val = 0 * 6144 + d.val
  omega

/-- The flat projection of the flattened arguments, read back as [4, 4096, 6144], is the projection. -/
theorem unflatten (x : Hid.Idx → EReal) (w : Wgt.Idx → EReal) (b : Bias.Idx → EReal)
    (hx : Hid.ShapeCasts Rows) (hb : Bias.ShapeCasts BiasRow) (ho : Flat.ShapeCasts Out) :
    shapeCast Out (proj (shapeCast Rows x hx) w (shapeCast BiasRow b hb)) ho = qkv x w b := by
  funext j
  obtain ⟨n, t, d, rfl⟩ : ∃ (n : Fin 4) (t : Fin 4096) (d : Fin 6144), j = ix3 n t d := ⟨j 0, j 1, j 2, eq_ix3 j⟩
  have hlt : n.val * 4096 + t.val < 16384 := by have := n.isLt; have := t.isLt; omega
  refine (shapeCast_apply _ ho (ix3 n t d) (ix2 (⟨n.val * 4096 + t.val, hlt⟩ : Fin 16384) d) ?_).trans ?_
  · rw [Shape.rowMajor_val_three, Shape.rowMajor_val_two]
    show (n.val * 4096 + t.val) * 6144 + d.val = (n.val * 4096 + t.val) * 6144 + d.val
    rfl
  · show (∑ h : Fin 2048, shapeCast Rows x hx (ix2 (⟨n.val * 4096 + t.val, hlt⟩ : Fin 16384) h) * w (ix2 h d))
        + shapeCast BiasRow b hb (ix2 (0 : Fin 1) d)
      = (∑ h : Fin 2048, x (ix3 n t h) * w (ix2 h d)) + b (ix1 d)
    rw [biasRow_apply b hb d]
    refine congrArg (· + b (ix1 d)) (Finset.sum_congr rfl fun h _ => ?_)
    rw [rows_apply x hx n t h ⟨n.val * 4096 + t.val, hlt⟩ rfl]

end Cert.Qkv

end
-- ==== Proof.KernelBlock.lean ====
/-
  The kernel body's one stored value, read at an entry of the block.

  At a grid point the body loads a 512×2048 block a of the flattened hidden states, a 2048×768 block w of the
  weight and a 1×768 block b of the bias row, and stores
      a · w + b   (the product accumulated from zero, the bias row repeated down the 512 rows).
  Over the extended reals the changes of float format are the identity, so entry (p, q) of what is stored is
      (∑ h, a[p, h] · w[h, q]) + b[0, q].
  When the three blocks are the blocks of whole arrays at row r and column d, that is entry (r, d) of the flat
  projection of those arrays.
-/
import proofs.«180652_j51977694216468_1_alg».proof.Proof.Gen.KernelIdeal.Skeleton
import proofs.«180652_j51977694216468_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The product's operand indices: rows of the left block, columns of the right, one contracted axis -/

theorem lhs_row (i : S512x768.Idx) (k : dot_S512x2048_S2048x768_S512x768_1_0_0_1_n_n.contr.Idx) :
    (dot_S512x2048_S2048x768_S512x768_1_0_0_1_n_n.lhsIdx i k 0).val = (i 0).val := by
  unfold DotDims.lhsIdx
  rw [dif_neg (show ¬(0 : Fin S512x2048.rank) ∈ dot_S512x2048_S2048x768_S512x768_1_0_0_1_n_n.lhsBatch by decide), dif_pos (show (0 : Fin S512x2048.rank) ∈ dot_S512x2048_S2048x768_S512x768_1_0_0_1_n_n.lhsNonContracting by decide)]
  rfl
theorem lhs_contr (i : S512x768.Idx) (k : dot_S512x2048_S2048x768_S512x768_1_0_0_1_n_n.contr.Idx) :
    (dot_S512x2048_S2048x768_S512x768_1_0_0_1_n_n.lhsIdx i k 1).val = (k ⟨0, by decide⟩).val :=
  dot_S512x2048_S2048x768_S512x768_1_0_0_1_n_n.lhsIdx_val_of_single rfl i k
theorem rhs_contr (i : S512x768.Idx) (k : dot_S512x2048_S2048x768_S512x768_1_0_0_1_n_n.contr.Idx) :
    (dot_S512x2048_S2048x768_S512x768_1_0_0_1_n_n.rhsIdx i k 0).val = (k ⟨0, by decide⟩).val :=
  dot_S512x2048_S2048x768_S512x768_1_0_0_1_n_n.rhsIdx_val_of_single rfl i k
theorem rhs_col (i : S512x768.Idx) (k : dot_S512x2048_S2048x768_S512x768_1_0_0_1_n_n.contr.Idx) :
    (dot_S512x2048_S2048x768_S512x768_1_0_0_1_n_n.rhsIdx i k 1).val = (i 1).val := by
  unfold DotDims.rhsIdx
  rw [dif_neg (show ¬(1 : Fin S2048x768.rank) ∈ dot_S512x2048_S2048x768_S512x768_1_0_0_1_n_n.rhsBatch by decide), dif_pos (show (1 : Fin S2048x768.rank) ∈ dot_S512x2048_S2048x768_S512x768_1_0_0_1_n_n.rhsNonContracting by decide)]
  rfl

/-- The block product accumulated from zero, at entry (p, q): the sum over the 2048 contracted positions. -/
theorem product_apply (a : FVec Ideal S512x2048 .bf16) (w : FVec Ideal S2048x768 .bf16) (p : Fin 512) (q : Fin 768) :
    matmul dot_S512x2048_S2048x768_S512x768_1_0_0_1_n_n none a w (constant (F := Ideal) S512x768 .f32 0x00000000#32) (ix2 p q)
      = ∑ h : Fin 2048, a (ix2 p h) * w (ix2 h q) := by
  simp only [matmul]
  rw [Ideal.matmul_constant_zero_apply, ← Equiv.sum_comp (contrEquiv1 dot_S512x2048_S2048x768_S512x768_1_0_0_1_n_n 2048 rfl rfl).symm]
  refine Finset.sum_congr rfl fun h _ => ?_
  have hk := contrEquiv1_symm_val dot_S512x2048_S2048x768_S512x768_1_0_0_1_n_n 2048 rfl rfl h
  have el : dot_S512x2048_S2048x768_S512x768_1_0_0_1_n_n.lhsIdx (ix2 p q) ((contrEquiv1 dot_S512x2048_S2048x768_S512x768_1_0_0_1_n_n 2048 rfl rfl).symm h) = ix2 p h := funext fun ax => Fin.ext (by
    match ax with
    | ⟨0, _⟩ => exact lhs_row _ _
    | ⟨1, _⟩ => exact (lhs_contr _ _).trans hk)
  have er : dot_S512x2048_S2048x768_S512x768_1_0_0_1_n_n.rhsIdx (ix2 p q) ((contrEquiv1 dot_S512x2048_S2048x768_S512x768_1_0_0_1_n_n 2048 rfl rfl).symm h) = ix2 h q := funext fun ax => Fin.ext (by
    match ax with
    | ⟨0, _⟩ => exact (rhs_contr _ _).trans hk
    | ⟨1, _⟩ => exact rhs_col _ _)
  rw [el, er]

/-- The bias row repeated down the rows, at entry (p, q): the row's entry q. -/
theorem biasRows_apply (b : FVec Ideal S1x768 .f32) (p : Fin 512) (q : Fin 768) :
    broadcastTo S512x768 b broadcasts_S1x768_S512x768 (ix2 p q) = b (ix2 (0 : Fin 1) q) :=
  broadcastTo_apply b broadcasts_S1x768_S512x768 (ix2 p q) (ix2 (0 : Fin 1) q) (fun ax => match ax with
    | ⟨0, _⟩ => by show 0 = if (1 : Nat) = 1 then 0 else p.val; rw [if_pos rfl]
    | ⟨1, _⟩ => by show q.val = if (768 : Nat) = 1 then 0 else q.val; rw [if_neg (by decide)])

/-- What the body stores, at entry (p, q) of the block. -/
theorem stored_apply (x0 : Vec Ideal S512x2048 .f32) (x1 : Vec Ideal S2048x768 .f32) (x2 : Vec Ideal S1x768 .f32)
    (p : Fin 512) (q : Fin 768) :
    k0_pay1 (F := Ideal) x0 x1 x2 (ix2 p q) = (∑ h : Fin 2048, x0 (ix2 p h) * x1 (ix2 h q)) + x2 (ix2 (0 : Fin 1) q) := by
  unfold k0_pay1
  refine (addf_apply _ _ (ix2 p q)).trans ?_
  refine congrArg₂ (· + ·) ?_ ?_
  · refine (product_apply _ _ p q).trans (Finset.sum_congr rfl fun h _ => ?_)
    show shapeCast S512x2048 x0 shapeCasts_S512x2048_S512x2048 (ix2 p h) * x1 (ix2 h q) = x0 (ix2 p h) * x1 (ix2 h q)
    rw [shapeCast_self]
  · refine (biasRows_apply _ p q).trans ?_
    show shapeCast S1x768 x2 shapeCasts_S1x768_S1x768 (ix2 (0 : Fin 1) q) = x2 (ix2 (0 : Fin 1) q)
    rw [shapeCast_self]

/-- When the loaded blocks are those of arrays X, W, B at row r and column d, the stored entry is the flat
    projection's entry (r, d). -/
theorem stored_eq_proj (X : Cert.Qkv.Rows.Idx → EReal) (W : Cert.Qkv.Wgt.Idx → EReal) (B : Cert.Qkv.BiasRow.Idx → EReal)
    (x0 : Vec Ideal S512x2048 .f32) (x1 : Vec Ideal S2048x768 .f32) (x2 : Vec Ideal S1x768 .f32)
    (p : Fin 512) (q : Fin 768) (r : Fin 16384) (d : Fin 6144)
    (h0 : ∀ h : Fin 2048, x0 (ix2 p h) = X (ix2 r h))
    (h1 : ∀ h : Fin 2048, x1 (ix2 h q) = W (ix2 h d))
    (h2 : x2 (ix2 (0 : Fin 1) q) = B (ix2 (0 : Fin 1) d)) :
    k0_pay1 (F := Ideal) x0 x1 x2 (ix2 p q) = Cert.Qkv.proj X W B (ix2 r d) := by
  rw [stored_apply]
  show _ = (∑ h : Fin 2048, X (ix2 r h) * W (ix2 h d)) + B (ix2 (0 : Fin 1) d)
  rw [h2]
  exact congrArg (· + B (ix2 (0 : Fin 1) d)) (Finset.sum_congr rfl fun h _ => by rw [h0 h, h1 h])

end Cert.KernelIdeal.Block

end
-- ==== Proof.KernelArray.lean ====
/-
  From what each grid point writes back to the whole [16384, 6144] array the kernel leaves.

  The grid is 32 × 8. At point (i, j) the body sees rows 512·i … 512·i + 511 of the flattened hidden states (all
  2048 columns), columns 768·j … 768·j + 767 of the weight (all 2048 rows) and of the bias row, and writes back
  the 512 × 768 block (i, j) of the result. By the entry formula of the stored value, entry (p, q) of that block is
  entry (512·i + p, 768·j + q) of the flat projection of the three arrays as the region finds them; the 256
  blocks tile the array (row r lies in block row r / 512, column d in block column d / 768), so after the last
  point the array IS the flat projection.
-/
import proofs.«180652_j51977694216468_1_alg».proof.Proof.Gen.KernelIdeal.Frame
import proofs.«180652_j51977694216468_1_alg».proof.Proof.KernelBlock
import Idealize.ShloMosaic.Lib.Pipeline.Value

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The block indices at a grid point: the hidden-state block moves with the result's block row and the weight and
    bias blocks with its block column; their other block index is 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 31 ∧ win0_3.index t (1 : Fin 2) ≤ 7 :=
  (by decide +kernel : ∀ t : Fin grid0.N, _)

/-- Every block (i, j) of the 32 × 8 tiling is some grid point's. -/
theorem index_onto : ∀ (q0 : Fin 32) (q1 : Fin 8), ∃ t : Fin cfg0.N, win0_3.index t = ![q0.val, q1.val] :=
  (by decide +kernel : ∀ (q0 : Fin 32) (q1 : Fin 8), ∃ t : Fin grid0.N, win0_3.index t = ![q0.val, q1.val])

/-! ## The three arrays as the region finds them, and their blocks at a point -/

abbrev rowsArr (c : Dev nD) : S16384x2048.Idx → EReal := V m c main_v0
abbrev wgtArr (c : Dev nD) : S2048x6144.Idx → EReal := V m c main_arg1
abbrev biasArr (c : Dev nD) : S1x6144.Idx → EReal := V m c main_v1
abbrev rowsBlk (c : Dev nD) (t : Fin cfg0.N) : Vec Ideal S512x2048 .f32 := iblk m c 0 t
abbrev wgtBlk (c : Dev nD) (t : Fin cfg0.N) : Vec Ideal S2048x768 .f32 := iblk m c 1 t
abbrev biasBlk (c : Dev nD) (t : Fin cfg0.N) : Vec Ideal S1x768 .f32 := iblk m c 2 t

/-- Row p of the hidden-state block at a point is row 512·i + p of the array. -/
theorem rowsBlk_apply (c : Dev nD) (t : Fin cfg0.N) (p : Fin 512) (h : Fin 2048) (r : Fin 16384)
    (hr : r.val = win0_3.index t (0 : Fin 2) * 512 + p.val) :
    rowsBlk m c t (ix2 p h) = rowsArr m c (ix2 r h) := by
  obtain ⟨e0, e1, -⟩ := index_facts t
  show V m c main_v0 (((cfg0.win 0).blk t).view.emb (ix2 p h)) = V m c main_v0 (ix2 r h)
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 2048 + 1 * h.val = h.val; omega

/-- Column q of the weight block at a point is column 768·j + q of the array. -/
theorem wgtBlk_apply (c : Dev nD) (t : Fin cfg0.N) (h : Fin 2048) (q : Fin 768) (d : Fin 6144)
    (hd : d.val = win0_3.index t (1 : Fin 2) * 768 + q.val) :
    wgtBlk m c t (ix2 h q) = wgtArr m c (ix2 h d) := by
  obtain ⟨-, -, e2, e3, -⟩ := index_facts t
  show V m c main_arg1 (((cfg0.win 1).blk t).view.emb (ix2 h q)) = V m c main_arg1 (ix2 h d)
  refine congrArg (V m c main_arg1) (funext fun a => Fin.ext ?_)
  match a with
  | ⟨0, _⟩ => show win0_1.index t (0 : Fin 2) * 2048 + 1 * h.val = h.val; omega
  | ⟨1, _⟩ => show win0_1.index t (1 : Fin 2) * 768 + 1 * q.val = d.val; omega

/-- Column q of the bias block at a point is column 768·j + q of the bias row. -/
theorem biasBlk_apply (c : Dev nD) (t : Fin cfg0.N) (q : Fin 768) (d : Fin 6144)
    (hd : d.val = win0_3.index t (1 : Fin 2) * 768 + q.val) :
    biasBlk m c t (ix2 (0 : Fin 1) q) = biasArr m c (ix2 (0 : Fin 1) d) := by
  obtain ⟨-, -, -, -, e4, e5, -⟩ := index_facts t
  show V m c main_v1 (((cfg0.win 2).blk t).view.emb (ix2 (0 : Fin 1) q)) = V m c main_v1 (ix2 (0 : Fin 1) d)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 768 + 1 * q.val = d.val; omega

/-! ## What a point writes back -/

/-- Point t writes back block t of the flat projection of the arrays as the region finds them. -/
theorem flushed_eq (c : Dev nD) (t : Fin cfg0.N) :
    (dats m 0 c).flushed 3 t
      = ((cfg0.win 3).blk t).view.read (Elt Ideal) (Cert.Qkv.proj (rowsArr m c) (wgtArr m c) (biasArr m c)) := by
  show (cfg0.win 3).cut (grid0.coords t) ((dats m 0 c).after 3 t) = _
  rw [after0_3]
  unfold out0_3
  rw [View.canon_unit_zero origin]
  simp only [View.ld_unit_zero (S := S512x2048) origin, View.ld_unit_zero (S := S2048x768) origin, View.ld_unit_zero (S := S1x768) origin]
  obtain ⟨-, -, -, -, -, -, b0, b1⟩ := index_facts t
  funext j
  have hj0 : (j 0).val < 512 := (j 0).isLt
  have hj1 : (j 1).val < 768 := (j 1).isLt
  have hj : j = ix2 (n0 := 512) (n1 := 768) (j 0) (j 1) := eq_ix2 (n0 := 512) (n1 := 768) j
  have hemb : ((cfg0.win 3).blk t).view.emb j
      = ix2 (n0 := 16384) (n1 := 6144) ⟨win0_3.index t (0 : Fin 2) * 512 + (j 0).val, by omega⟩ ⟨win0_3.index t (1 : Fin 2) * 768 + (j 1).val, by omega⟩ := by
    funext a; apply Fin.ext
    match a with
    | ⟨0, _⟩ => show win0_3.index t (0 : Fin 2) * 512 + 1 * (j 0).val = win0_3.index t (0 : Fin 2) * 512 + (j 0).val; omega
    | ⟨1, _⟩ => show win0_3.index t (1 : Fin 2) * 768 + 1 * (j 1).val = win0_3.index t (1 : Fin 2) * 768 + (j 1).val; omega
  show k0_pay1 (F := Ideal) (rowsBlk m c t) (wgtBlk m c t) (biasBlk m c t) j
    = Cert.Qkv.proj (rowsArr m c) (wgtArr m c) (biasArr m c) (((cfg0.win 3).blk t).view.emb j)
  refine ((congrArg (k0_pay1 (F := Ideal) (rowsBlk m c t) (wgtBlk m c t) (biasBlk m c t)) hj).trans ?_).trans
    (congrArg (Cert.Qkv.proj (rowsArr m c) (wgtArr m c) (biasArr m c)) hemb).symm
  exact Block.stored_eq_proj (rowsArr m c) (wgtArr m c) (biasArr m c) (rowsBlk m c t) (wgtBlk m c t) (biasBlk m c t)
    (j 0) (j 1) ⟨win0_3.index t (0 : Fin 2) * 512 + (j 0).val, by omega⟩ ⟨win0_3.index t (1 : Fin 2) * 768 + (j 1).val, by omega⟩
    (fun h => rowsBlk_apply m c t (j 0) h _ rfl) (fun h => wgtBlk_apply m c t h (j 1) _ rfl) (biasBlk_apply m c t (j 1) _ rfl)

/-! ## The blocks tile the array -/

/-- An index of the array is in point t's block iff each coordinate is in the block's range on its axis. -/
theorem mem_blk (t : Fin cfg0.N) (i : S16384x6144.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v2).slice (win0_3.rect t)).set ↔ _
  rw [View.set_slice_whole, Rect.mem_set_unit]
  exact Iff.rfl

/-- Every entry (r, d) lies in the block of the point at block row r / 512 and block column d / 768. -/
theorem cover (i : S16384x6144.Idx) : ∃ t : Fin cfg0.N, (cfg0.win 3).flush t = true ∧ i ∈ ((cfg0.win 3).blk t).view.set := by
  have hi0 : (i 0).val < 16384 := (i 0).isLt
  have hi1 : (i 1).val < 6144 := (i 1).isLt
  obtain ⟨t, ht⟩ := index_onto ⟨(i 0).val / 512, by omega⟩ ⟨(i 1).val / 768, by omega⟩
  have q0 : win0_3.index t (0 : Fin 2) = (i 0).val / 512 := congrFun ht 0
  have q1 : win0_3.index t (1 : Fin 2) = (i 1).val / 768 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 768 ≤ (i 1).val ∧ (i 1).val < win0_3.index t (1 : Fin 2) * 768 + 768; omega

/-- After the last point the result array is the flat projection of the arrays as the region finds them. -/
theorem final (c : Dev nD) :
    (dats m 0 c).arrAt 3 cfg0.N = Cert.Qkv.proj (rowsArr m c) (wgtArr m c) (biasArr m c) :=
  (dats m 0 c).arrAt_eq_of_cover 3 _ (fun t _ => flushed_eq m c t) cover

end Cert.KernelIdeal.Whole

end
-- ==== Proof.KernelRun.lean ====
/-
  The idealized kernel's whole run, read: the three results as functions of the three arguments.

  Before the region the host flattens the hidden states to [16384, 2048] and turns the bias into a [1, 6144] row;
  the weight is passed as it is. The region leaves the flat projection of those three arrays in its result array.
  After the region the host reads that array back as [4, 4096, 6144] — which is the projection qkv of the
  arguments themselves, the row-major positions agreeing — and takes its three column ranges by heads.
-/
import proofs.«180652_j51977694216468_1_alg».proof.Proof.KernelArray
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The region finds the hidden states flattened. -/
theorem rowsArr_eq (c : Dev nD) :
    rowsArr m c = shapeCast S16384x2048 (m ((c : Thread nD τ).loc main_arg0)) shapeCasts_S4x4096x2048_S16384x2048 := by
  show StableHlo.after hostOps0 (fun b => m (c, b)) (Proc.devRef .tc main_v0) = _
  after_results
  rfl

/-- The region finds the bias as one row. -/
theorem biasArr_eq (c : Dev nD) :
    biasArr m c = shapeCast S1x6144 (m ((c : Thread nD τ).loc main_arg2)) shapeCasts_S6144_S1x6144 := by
  show StableHlo.after hostOps0 (fun b => m (c, b)) (Proc.devRef .tc main_v1) = _
  after_results
  rfl

/-- The region finds the weight as launched. -/
theorem wgtArr_eq (c : Dev nD) : wgtArr m c = m ((c : Thread nD τ).loc main_arg1) := V_main_arg1 m c

/-! ## The result array at the region's exit, read back as [4, 4096, 6144] -/

/-- At the region's exit the result array holds the flat projection. -/
theorem exit_eq (c : Dev nD) :
    Pipeline.withArrays spec0 c (V0 m c) (fun w => (dats m 0 c).arrAt w cfg0.N) (Proc.devRef .tc main_v2)
      = Cert.Qkv.proj (rowsArr m c) (wgtArr m c) (biasArr m c) :=
  (Pipeline.withArrays_arr spec0 launch0.win.arr_inj c (V0 m c) (fun w => (dats m 0 c).arrAt w cfg0.N) 3).trans (final m c)

/-- Read back as [4, 4096, 6144] it is the projection of the arguments. -/
theorem unflat_eq (c : Dev nD) :
    shapeCast S4x4096x6144
        (Pipeline.withArrays spec0 c (V0 m c) (fun w => (dats m 0 c).arrAt w cfg0.N) (Proc.devRef .tc main_v2))
        shapeCasts_S16384x6144_S4x4096x6144
      = Cert.Qkv.qkv (m ((c : Thread nD τ).loc main_arg0)) (m ((c : Thread nD τ).loc main_arg1)) (m ((c : Thread nD τ).loc main_arg2)) := by
  rw [exit_eq, rowsArr_eq, wgtArr_eq, biasArr_eq]
  exact Cert.Qkv.unflatten _ _ _ shapeCasts_S4x4096x2048_S16384x2048 shapeCasts_S6144_S1x6144 shapeCasts_S16384x6144_S4x4096x6144

/-! ## The three results after the host's last lines -/

theorem query_eq (c : Dev nD) :
    Pipeline.afterTail₀ cfgs (dats m) 0 (V0 m) [hostOps1] c main_v8
      = Cert.Qkv.heads 0 (Cert.Qkv.qkv (m ((c : Thread nD τ).loc main_arg0)) (m ((c : Thread nD τ).loc main_arg1)) (m ((c : Thread nD τ).loc main_arg2)))
          slices_S4x4096x6144_S4x4096x2048_0_0_0 shapeCasts_S4x4096x2048_S4x4096x16x128 transposes_S4x4096x16x128_S4x16x4096x128_0_2_1_3 := by
  unfold Pipeline.afterTail₀
  show StableHlo.after hostOps1 _ (Proc.devRef .tc main_v8) = _
  after_results
  exact congrArg (fun y => Cert.Qkv.heads 0 y slices_S4x4096x6144_S4x4096x2048_0_0_0 shapeCasts_S4x4096x2048_S4x4096x16x128 transposes_S4x4096x16x128_S4x16x4096x128_0_2_1_3) (unflat_eq m c)

theorem key_eq (c : Dev nD) :
    Pipeline.afterTail₀ cfgs (dats m) 0 (V0 m) [hostOps1] c main_v10
      = Cert.Qkv.heads 2048 (Cert.Qkv.qkv (m ((c : Thread nD τ).loc main_arg0)) (m ((c : Thread nD τ).loc main_arg1)) (m ((c : Thread nD τ).loc main_arg2)))
          slices_S4x4096x6144_S4x4096x2048_0_0_2048 shapeCasts_S4x4096x2048_S4x4096x16x128 transposes_S4x4096x16x128_S4x16x4096x128_0_2_1_3 := by
  unfold Pipeline.afterTail₀
  show StableHlo.after hostOps1 _ (Proc.devRef .tc main_v10) = _
  after_results
  exact congrArg (fun y => Cert.Qkv.heads 2048 y slices_S4x4096x6144_S4x4096x2048_0_0_2048 shapeCasts_S4x4096x2048_S4x4096x16x128 transposes_S4x4096x16x128_S4x16x4096x128_0_2_1_3) (unflat_eq m c)

theorem value_eq (c : Dev nD) :
    Pipeline.afterTail₀ cfgs (dats m) 0 (V0 m) [hostOps1] c main_v12
      = Cert.Qkv.heads 4096 (Cert.Qkv.qkv (m ((c : Thread nD τ).loc main_arg0)) (m ((c : Thread nD τ).loc main_arg1)) (m ((c : Thread nD τ).loc main_arg2)))
          slices_S4x4096x6144_S4x4096x2048_0_0_4096 shapeCasts_S4x4096x2048_S4x4096x16x128 transposes_S4x4096x16x128_S4x16x4096x128_0_2_1_3 := by
  unfold Pipeline.afterTail₀
  show StableHlo.after hostOps1 _ (Proc.devRef .tc main_v12) = _
  after_results
  exact congrArg (fun y => Cert.Qkv.heads 4096 y slices_S4x4096x6144_S4x4096x2048_0_0_4096 shapeCasts_S4x4096x2048_S4x4096x16x128 transposes_S4x4096x16x128_S4x16x4096x128_0_2_1_3) (unflat_eq m c)

/-! ## The run -/

/-- Every weakly fair execution of the idealized kernel's @main terminates with the three results at the
    projection of the arguments, by heads, and the arguments unchanged. -/
theorem run : θ_run defs (onTc (τ := τ) (main (F := Ideal))) ⟨m, fun _ => 0, ρ⟩ fun r => ∀ c : Dev nD,
      r.2.mem ((c : Thread nD τ).loc main_v8) = Cert.Qkv.heads 0 (Cert.Qkv.qkv (m ((c : Thread nD τ).loc main_arg0)) (m ((c : Thread nD τ).loc main_arg1)) (m ((c : Thread nD τ).loc main_arg2))) slices_S4x4096x6144_S4x4096x2048_0_0_0 shapeCasts_S4x4096x2048_S4x4096x16x128 transposes_S4x4096x16x128_S4x16x4096x128_0_2_1_3
      ∧ r.2.mem ((c : Thread nD τ).loc main_v10) = Cert.Qkv.heads 2048 (Cert.Qkv.qkv (m ((c : Thread nD τ).loc main_arg0)) (m ((c : Thread nD τ).loc main_arg1)) (m ((c : Thread nD τ).loc main_arg2))) slices_S4x4096x6144_S4x4096x2048_0_0_2048 shapeCasts_S4x4096x2048_S4x4096x16x128 transposes_S4x4096x16x128_S4x16x4096x128_0_2_1_3
      ∧ r.2.mem ((c : Thread nD τ).loc main_v12) = Cert.Qkv.heads 4096 (Cert.Qkv.qkv (m ((c : Thread nD τ).loc main_arg0)) (m ((c : Thread nD τ).loc main_arg1)) (m ((c : Thread nD τ).loc main_arg2))) slices_S4x4096x6144_S4x4096x2048_0_0_4096 shapeCasts_S4x4096x2048_S4x4096x16x128 transposes_S4x4096x16x128_S4x16x4096x128_0_2_1_3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v8 (Pipeline.mem_restRefs_of main_v8 (by decide) (by decide))).trans (query_eq m c),
       ((h c).2 main_v10 (Pipeline.mem_restRefs_of main_v10 (by decide) (by decide))).trans (key_eq m c),
       ((h c).2 main_v12 (Pipeline.mem_restRefs_of main_v12 (by decide) (by decide))).trans (value_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference at the ideal values: its dot_general plus the broadcast bias is the projection
      qkv[n, t, d] = (∑ h, x[n, t, h] · w[h, d]) + b[d],
  read entry by entry (the contraction is one sum over h; the two broadcasts of the bias read b[d]); the three
  results are that array's three column ranges laid out by heads.
-/
import proofs.«180652_j51977694216468_1_alg».proof.Proof.Gen.ReferenceIdeal.Read
import proofs.«180652_j51977694216468_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
open Idealize.SL.Sem Idealize.ShloMosaic.ValueIdx

/-- The sum of the contraction and the broadcast bias is the projection, entry by entry. -/
theorem sum_eq_qkv (x0 : S4x4096x2048.Idx → EReal) (x1 : S2048x6144.Idx → EReal) (x2 : S6144.Idx → EReal) :
    val_main_v3 (F := Ideal) x0 x1 x2 = Cert.Qkv.qkv x0 x1 x2 := by
  funext i
  have e0 : ∀ k : Fin 2048, lidx_main_v0 i k = ix3 (i 0) (i 1) k := fun k => funext fun a => Fin.ext (by
    match a with
    | ⟨0, _⟩ => rfl
    | ⟨1, _⟩ => rfl
    | ⟨2, _⟩ => rfl)
  have e1 : ∀ k : Fin 2048, ridx_main_v0 i k = ix2 k (i 2) := fun k => funext fun a => Fin.ext (by
    match a with
    | ⟨0, _⟩ => rfl
    | ⟨1, _⟩ => rfl)
  have e2 : idx_main_v1 (idx_main_v2 i) = ix1 (i 2) := funext fun a => Fin.ext (by
    match a with
    | ⟨0, _⟩ => rfl)
  rw [val_main_v3_apply, val_main_v0_apply, val_main_v2_apply, val_main_v1_apply, e2]
  show (∑ k : Fin 2048, x0 (lidx_main_v0 i k) * x1 (ridx_main_v0 i k)) + x2 (ix1 (i 2))
    = (∑ h : Fin 2048, x0 (ix3 (i 0) (i 1) h) * x1 (ix2 h (i 2))) + x2 (ix1 (i 2))
  exact congrArg (· + x2 (ix1 (i 2))) (Finset.sum_congr rfl fun k _ => by rw [e0 k, e1 k]; rfl)

variable (m : (ℓ : Loc nD τ sig) → Buf (Elt Ideal) ℓ) (ρ : Dev nD → PrngReg)

/-- The reference's run: the three results are the projection of the arguments, by heads; the arguments stay. -/
theorem run : θ_run defs (onTc (τ := τ) (main (F := Ideal))) ⟨m, fun _ => 0, ρ⟩ fun r => ∀ c : Dev nD,
      r.2.mem ((c.tc : Thread nD τ).loc main_v8) = Cert.Qkv.heads 0 (Cert.Qkv.qkv (m ((c.tc : Thread nD τ).loc main_arg0)) (m ((c.tc : Thread nD τ).loc main_arg1)) (m ((c.tc : Thread nD τ).loc main_arg2))) slices_S4x4096x6144_S4x4096x2048_0_0_0 shapeCasts_S4x4096x2048_S4x4096x16x128 transposes_S4x4096x16x128_S4x16x4096x128_0_2_1_3
      ∧ r.2.mem ((c.tc : Thread nD τ).loc main_v10) = Cert.Qkv.heads 2048 (Cert.Qkv.qkv (m ((c.tc : Thread nD τ).loc main_arg0)) (m ((c.tc : Thread nD τ).loc main_arg1)) (m ((c.tc : Thread nD τ).loc main_arg2))) slices_S4x4096x6144_S4x4096x2048_0_0_2048 shapeCasts_S4x4096x2048_S4x4096x16x128 transposes_S4x4096x16x128_S4x16x4096x128_0_2_1_3
      ∧ r.2.mem ((c.tc : Thread nD τ).loc main_v12) = Cert.Qkv.heads 4096 (Cert.Qkv.qkv (m ((c.tc : Thread nD τ).loc main_arg0)) (m ((c.tc : Thread nD τ).loc main_arg1)) (m ((c.tc : Thread nD τ).loc main_arg2))) slices_S4x4096x6144_S4x4096x2048_0_0_4096 shapeCasts_S4x4096x2048_S4x4096x16x128 transposes_S4x4096x16x128_S4x16x4096x128_0_2_1_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans (congrArg (fun y => Cert.Qkv.heads 0 y slices_S4x4096x6144_S4x4096x2048_0_0_0 shapeCasts_S4x4096x2048_S4x4096x16x128 transposes_S4x4096x16x128_S4x16x4096x128_0_2_1_3) (sum_eq_qkv _ _ _)),
       (h c).2.1.trans (congrArg (fun y => Cert.Qkv.heads 2048 y slices_S4x4096x6144_S4x4096x2048_0_0_2048 shapeCasts_S4x4096x2048_S4x4096x16x128 transposes_S4x4096x16x128_S4x16x4096x128_0_2_1_3) (sum_eq_qkv _ _ _)),
       (h c).2.2.1.trans (congrArg (fun y => Cert.Qkv.heads 4096 y slices_S4x4096x6144_S4x4096x2048_0_0_4096 shapeCasts_S4x4096x2048_S4x4096x16x128 transposes_S4x4096x16x128_S4x16x4096x128_0_2_1_3) (sum_eq_qkv _ _ _)),
       (h c).2.2.2⟩)
    (Cert.ReferenceIdeal.Value.run (F := Ideal) m ρ)

end Cert.ReferenceIdeal.RefValue

end
-- ==== Proof.lean ====
/-
  A fused QKV projection: hidden states x : [4, 4096, 2048], a weight w : [2048, 6144] and a bias b : [6144] give
      qkv[n, t, d] = (∑ h, x[n, t, h] · w[h, d]) + b[d],
  whose three column ranges (query, key, value) are returned by heads, each [4, 16, 4096, 128].

  The kernel flattens x to [16384, 2048], runs a 32 × 8 grid of 512 × 768 blocks, each one whole-K product of a row
  block of x with a column block of w (operands narrowed to bf16, accumulated in f32 from zero) plus the bias row,
  and reads the flat [16384, 6144] result back as [4, 4096, 6144]. The reference is one dot_general plus the
  broadcast bias. Over the extended reals a change of float format is the identity and both products are the same
  sum over h, so the two [4, 4096, 6144] arrays are equal entry by entry (Proof/Spec.lean: the row-major positions
  agree), and the last three layout steps (slice, split the columns into heads, move the heads ahead of time) are
  the same function applied to equal arrays. No law of arithmetic beyond reading the sums over one index set is
  used, so the finiteness of the inputs is never opened.

  Proof/KernelBlock.lean reads the body's stored value at an entry; Proof/KernelArray.lean assembles the 256
  blocks into the whole array; Proof/KernelRun.lean reads the host lines around the region; Proof/RefValue.lean
  reads the reference. The idealization rewrote no operation, so the preservation claim has nothing to state.
-/
import proofs.«180652_j51977694216468_1_alg».proof.Defs
import proofs.«180652_j51977694216468_1_alg».proof.Proof.Gen.Kernel
import proofs.«180652_j51977694216468_1_alg».proof.Proof.Gen.Kernel.Skeleton
import proofs.«180652_j51977694216468_1_alg».proof.Proof.Gen.Kernel.Launch
import proofs.«180652_j51977694216468_1_alg».proof.Proof.Gen.Kernel.Points
import proofs.«180652_j51977694216468_1_alg».proof.Proof.Gen.Kernel.Frame
import proofs.«180652_j51977694216468_1_alg».proof.Proof.Gen.KernelIdeal
import proofs.«180652_j51977694216468_1_alg».proof.Proof.Gen.KernelIdeal.Skeleton
import proofs.«180652_j51977694216468_1_alg».proof.Proof.Gen.KernelIdeal.Launch
import proofs.«180652_j51977694216468_1_alg».proof.Proof.Gen.KernelIdeal.Points
import proofs.«180652_j51977694216468_1_alg».proof.Proof.Gen.KernelIdeal.Frame
import proofs.«180652_j51977694216468_1_alg».proof.Proof.Gen.ReferenceIdeal
import proofs.«180652_j51977694216468_1_alg».proof.Proof.Gen.ReferenceIdeal.Run
import proofs.«180652_j51977694216468_1_alg».proof.Proof.Gen.Pre_finite_inputs
import proofs.«180652_j51977694216468_1_alg».proof.Proof.KernelRun
import proofs.«180652_j51977694216468_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both idealized programs end with query, key and value at the projection of the shared arguments, by heads. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ⟨?_, ?_, ?_, (h c).2.2.2⟩)
    (Cert.ReferenceIdeal.RefValue.run m' ρ')
  · refine (h c).1.trans ?_
    rw [(hagree c).1, (hagree c).2.1, (hagree c).2.2]
  · refine (h c).2.1.trans ?_
    rw [(hagree c).1, (hagree c).2.1, (hagree c).2.2]
  · refine (h c).2.2.1.trans ?_
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
